-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x4096x4096 .f32) (main_arg1 : FVec F S4096x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x4096x4096 : Shape := ⟨3, ![4, 4096, 4096]⟩
abbrev S4096x4096 : Shape := ⟨2, ![4096, 4096]⟩
abbrev S16384x4096 : Shape := ⟨2, ![16384, 4096]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S16384x4096, .f32⟩
  | .hbm, ⟨3, _⟩ => ⟨S16384x4096, .f32⟩
  | .hbm, ⟨4, _⟩ => ⟨S4x4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S4x4096x4096_S16384x4096 : S4x4096x4096.ShapeCasts S16384x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  shapeCasts_S16384x4096_S4x4096x4096 : S16384x4096.ShapeCasts S4x4096x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .f32 = 32 ∨ (Rect.block (s := S16384x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x4096.size a
  hwx0_2 : ∀ i : grid0.Coords, EltTy.bits .f32 = 32 ∨ (Rect.block (s := S16384x4096) S1024x1024.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4x4096x1x4096 : Shape := ⟨4, ![4, 4096, 1, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4x4096x1x4096, .f32⟩
  | .hbm, ⟨3, _⟩ => ⟨S4x4096x1x4096, .f32⟩
  | .hbm, ⟨4, _⟩ => ⟨S_, .f32⟩
  | .hbm, ⟨5, _⟩ => ⟨S4x4096x1x4096, .f32⟩
  | .hbm, ⟨6, _⟩ => ⟨S4x4096x1x4096, .f32⟩
  | .hbm, ⟨7, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  shapeCasts_S4x4096x4096_S4x4096x1x4096 : S4x4096x4096.ShapeCasts S4x4096x1x4096
  bcast_S_S4x4096x1x4096 : S_.BroadcastsInDim S4x4096x1x4096 (![] : Fin 0 → Fin S4x4096x1x4096.rank)
  shapeCasts_S4x4096x1x4096_S4x4096x4096 : S4x4096x1x4096.ShapeCasts S4x4096x4096
  dot_S4x4096x1x4096_S4096x4096_S4x4096x1x4096_3_1_012_0_n_n_wf : DotDims.WF S4x4096x1x4096 S4096x4096 S4x4096x1x4096 [3] [1] [0, 1, 2] [0] [] []

variable [Facts₀]

def dot_S4x4096x1x4096_S4096x4096_S4x4096x1x4096_3_1_012_0_n_n : DotDims S4x4096x1x4096 S4096x4096 S4x4096x1x4096 where
  lhsContracting := [3]
  rhsContracting := [1]
  lhsNonContracting := [0, 1, 2]
  rhsNonContracting := [0]
  lhsBatch := []
  rhsBatch := []
  wf := dot_S4x4096x1x4096_S4096x4096_S4x4096x1x4096_3_1_012_0_n_n_wf

class Facts : Prop extends Facts₀ where

variable [Facts]
-- ==== Proof.RowDot.lean ====
/-
  The mathematics both programs share, over the extended reals and free of either program.

  For a matrix `X` of 16384 rows and a square matrix `H` of 4096 rows, all rows of length 4096, the entry
  `(r, n)` of the result is the contraction of row `r` of `X` with row `n` of `H` (that is `X · Hᵀ`),
  multiplied by the fixed scale `2⁻⁶`, kept as the word `0x3C800000` on both sides and never evaluated.

  One side forms the contraction as a single sum over all 4096 positions. The other walks the positions in
  four consecutive blocks of 1024, starting from zero and adding one block's partial contraction at a time.
  Addition of extended reals is associative and commutative and `0` is neutral, so the two agree for ALL
  values, infinite ones included: no finiteness of the entries is used anywhere.
-/
import Idealize.ShloMosaic.Lib.ValueIdx
import Idealize.ShloMosaic.PureOps.Ideal.Laws

noncomputable section

namespace Cert.RowDot

open Idealize.ShloMosaic Idealize.ShloMosaic.ValueIdx

/-- The flattened left operand (16384 rows of length 4096) and the square right operand, as index functions. -/
abbrev Lhs : Type := (⟨2, ![16384, 4096]⟩ : Shape).Idx → EReal
abbrev Rhs : Type := (⟨2, ![4096, 4096]⟩ : Shape).Idx → EReal

/-- The product at position `k` of row `r` of `X` and row `n` of `H`; positions past the row length contribute
    nothing (so that blocks can be addressed by plain natural numbers). -/
def term (X : Lhs) (H : Rhs) (r : Fin 16384) (n : Fin 4096) (k : ℕ) : EReal :=
  if h : k < 4096 then X (ix2 r ⟨k, h⟩) * H (ix2 n ⟨k, h⟩) else 0

theorem term_of_lt (X : Lhs) (H : Rhs) (r : Fin 16384) (n : Fin 4096) {k : ℕ} (h : k < 4096) :
    term X H r n k = X (ix2 r ⟨k, h⟩) * H (ix2 n ⟨k, h⟩) := dif_pos h

/-- The contraction restricted to block `b`: positions `1024·b … 1024·b + 1023`. -/
def block (X : Lhs) (H : Rhs) (r : Fin 16384) (n : Fin 4096) (b : ℕ) : EReal :=
  ∑ j : Fin 1024, term X H r n (1024 * b + j.val)

/-- The running contraction after blocks `0 … b`. -/
def upTo (X : Lhs) (H : Rhs) (r : Fin 16384) (n : Fin 4096) (b : ℕ) : EReal :=
  ∑ a ∈ Finset.range (b + 1), block X H r n a

/-- The whole contraction, in one sum. -/
def whole (X : Lhs) (H : Rhs) (r : Fin 16384) (n : Fin 4096) : EReal :=
  ∑ k : Fin 4096, X (ix2 r k) * H (ix2 n k)

/-- Starting from zero, the first block alone. -/
theorem upTo_zero (X : Lhs) (H : Rhs) (r : Fin 16384) (n : Fin 4096) :
    upTo X H r n 0 = 0 + block X H r n 0 := by
  unfold upTo
  rw [Finset.sum_range_one, zero_add]

/-- One more block: the running contraction plus that block. -/
theorem upTo_succ (X : Lhs) (H : Rhs) (r : Fin 16384) (n : Fin 4096) (b : ℕ) :
    upTo X H r n (b + 1) = upTo X H r n b + block X H r n (b + 1) := by
  unfold upTo
  rw [Finset.sum_range_succ]

/-- Four blocks of 1024 exhaust the 4096 positions: the blocked contraction is the whole one. -/
theorem upTo_three (X : Lhs) (H : Rhs) (r : Fin 16384) (n : Fin 4096) :
    upTo X H r n 3 = whole X H r n := by
  unfold upTo whole block
  rw [Finset.sum_range (fun a => ∑ j : Fin 1024, term X H r n (1024 * a + j.val))]
  rw [← Fintype.sum_prod_type (f := fun p : Fin 4 × Fin 1024 => term X H r n (1024 * p.1.val + p.2.val))]
  rw [← Equiv.sum_comp (finProdFinEquiv (m := 4) (n := 1024))
    (fun k : Fin (4 * 1024) => X (ix2 r ⟨k.val, k.isLt⟩) * H (ix2 n ⟨k.val, k.isLt⟩))]
  refine Finset.sum_congr rfl fun p _ => ?_
  have h1 : p.1.val < 4 := p.1.isLt
  have h2 : p.2.val < 1024 := p.2.isLt
  have hlt : 1024 * p.1.val + p.2.val < 4096 := by omega
  rw [term_of_lt X H r n hlt]
  have e : ((finProdFinEquiv (m := 4) (n := 1024)) p).val = 1024 * p.1.val + p.2.val := by
    show p.2.val + 1024 * p.1.val = _
    omega
  congr 2 <;> (apply congrArg; apply Fin.ext; exact e.symm)

/-- The fixed scale, as the word both programs carry. -/
abbrev scale : EReal := Ideal.ofBits .f32 0x3C800000#32

/-- THE RESULT, flat: entry `(r, n)` is the whole contraction of the two rows, scaled. -/
def scaled (X : Lhs) (H : Rhs) : (⟨2, ![16384, 4096]⟩ : Shape).Idx → EReal :=
  fun i => whole X H (i 0) (i 1) * scale

end Cert.RowDot

end
-- ==== Proof.Cases.lean ====
/-
  What one run of the kernel body leaves behind, case by case, as plain terms of the body's arithmetic.

  The body keeps a 1024×1024 accumulator across the four K-blocks of one output tile. Which of three things it
  does is decided by the contraction axis' grid coordinate: at the first K-block it resets the accumulator to zero
  before adding the block product; at the middle ones it only adds; at the last one it adds and then writes the
  accumulator, scaled, into the output tile. Each store covers its whole buffer, so what a buffer holds afterwards
  is the last store's value, with every load of a whole buffer reading exactly what the buffer held.
-/
import proofs.«180732_j8890582303360_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Cases
open Cert.KernelIdeal Cert.KernelIdeal.Gen
variable {F : FTy → Type} [FloatOps F]

/-- The whole-block rectangle's offsets are zero on both axes. -/
theorem origin : (![0, 0] : Fin 2 → Nat) = fun _ => 0 := funext fun a => by fin_cases a <;> rfl

/-- FIRST K-BLOCK (the contraction axis' coordinate is 0): the accumulator is reset to the zero block, read back, and
    left at that zero block plus the product of the two input blocks. -/
theorem acc_first (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 x1 : Vec F S1024x1024 .f32) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) origin, View.readCov_unit_zero (S := S1024x1024) _ origin]
  simp only [View.readAt_eq_ld, h3.read_unread, h4.read_unread, View.ld_unit_zero (S := S1024x1024) origin]

/-- A MIDDLE K-BLOCK: the accumulator the point before left, plus the product of the two input blocks. -/
theorem acc_middle (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 x1 xs0 : Vec F S1024x1024 .f32) :
    sout0_B_0 c i a3 h3 a4 h4 a5 h5 a6 h6 hc0 hc1 x0 x1 xs0 = k0_pay2 x0 x1 xs0 := by
  unfold sout0_B_0
  rw [View.read_writes_eq_canon _ _ _ (scover0_B_0 c i a3 h3 a4 h4 a5 h5 a6 h6 hc0 hc1 x0 x1 xs0)]
  unfold kernelRun0_B
  dsimp only
  sl_unfold_words
  rw [View.canon_unit_zero (S := S1024x1024) origin]
  simp only [View.readAt_eq_ld, h3.read_unread, h4.read_unread, h6.read_unread, View.ld_unit_zero (S := S1024x1024) origin]

/-- THE LAST K-BLOCK leaves the accumulator the same way; -/
theorem acc_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 xs0 : Vec F S1024x1024 .f32) :
    sout0_C_0 c i a3 h3 a4 h4 a5 h5 a6 h6 hc0 hc1 x0 x1 xs0 = k0_pay2 x0 x1 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero (S := S1024x1024) origin]
  simp only [View.readAt_eq_ld, h3.read_unread, h4.read_unread, h6.read_unread, View.ld_unit_zero (S := S1024x1024) origin]

/-- and stores into the output block that finished accumulator, read back, times the scale. -/
theorem out_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 xs0 : Vec F S1024x1024 .f32) :
    out0_C_2 c i a3 h3 a4 h4 a5 h5 a6 h6 hc0 hc1 x0 x1 xs0 = k0_pay3 (k0_pay2 x0 x1 xs0) := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero (S := S1024x1024) origin, View.readCov_unit_zero (S := S1024x1024) _ origin]
  simp only [View.readAt_eq_ld, h3.read_unread, h4.read_unread, h6.read_unread, View.ld_unit_zero (S := S1024x1024) origin]

end Cert.KernelIdeal.Cases

end
-- ==== Proof.BodyValue.lean ====
/-
  The body's arithmetic at the exact instance, one entry at a time.

  Entry `(p, q)` of the block product is the contraction of row `p` of the left block with row `q` of the right
  block (both blocks are contracted along their second axis, so the right block enters transposed); narrowing
  the operands to a shorter float format changes nothing at this instance. Adding it to the accumulator, resetting
  the accumulator, and scaling the finished accumulator are entrywise.
-/
import proofs.«180732_j8890582303360_1_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem

namespace Cert.KernelIdeal.BodyValue
open Cert.KernelIdeal Cert.KernelIdeal.Gen Idealize.ShloMosaic.ValueIdx

/-- The left operand of the block product is indexed by the output row and the contraction position, -/
theorem lhs_row (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_pos (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
/-- the right operand by the output COLUMN (as its row) and the contraction position. -/
theorem rhs_row (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_pos (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The block product into a zero accumulator, at entry `(p, q)`: row `p` of the left block against row `q` of the
    right block. -/
theorem product_apply (a b : FVec Ideal S1024x1024 .bf16) (p q : Fin 1024) :
    matmul (F := Ideal) dot_S1024x1024_S1024x1024_S1024x1024_1_1_0_0_n_n none a b (constant S1024x1024 .f32 0x00000000#32) (ix2 p q)
      = ∑ k : Fin 1024, a (ix2 p k) * b (ix2 q k) := by
  simp only [matmul]
  rw [Ideal.matmul_constant_zero_apply, ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q) ((ValueIdx.contrEquiv1 dot_S1024x1024_S1024x1024_S1024x1024_1_1_0_0_n_n 1024 rfl rfl).symm k) = ix2 p k := funext fun d => Fin.ext (by
    match d with
    | ⟨0, _⟩ => exact lhs_row _ _
    | ⟨1, _⟩ => exact (lhs_pos _ _).trans hk)
  have er : dot_S1024x1024_S1024x1024_S1024x1024_1_1_0_0_n_n.rhsIdx (ix2 p q) ((ValueIdx.contrEquiv1 dot_S1024x1024_S1024x1024_S1024x1024_1_1_0_0_n_n 1024 rfl rfl).symm k) = ix2 q k := funext fun d => Fin.ext (by
    match d with
    | ⟨0, _⟩ => exact rhs_row _ _
    | ⟨1, _⟩ => exact (rhs_pos _ _).trans hk)
  rw [el, er]

/-- The reset block is zero everywhere. -/
theorem reset_apply (i : S1024x1024.Idx) : k0_pay1 (F := Ideal) i = 0 := by
  unfold k0_pay1
  simp only [shapeCast_self]
  exact Ideal.ofBits_zero_f32

/-- One accumulation step at entry `(p, q)`: the accumulator's entry plus the block product's. -/
theorem step_apply (x0 x1 acc : Vec Ideal S1024x1024 .f32) (p q : Fin 1024) :
    k0_pay2 (F := Ideal) x0 x1 acc (ix2 p q) = acc (ix2 p q) + ∑ k : Fin 1024, x0 (ix2 p k) * x1 (ix2 q k) := by
  unfold k0_pay2
  simp only [shapeCast_self]
  exact congrArg (acc (ix2 p q) + ·) (product_apply (truncf .bf16 x0 bitsLt_bf16_f32) (truncf .bf16 x1 bitsLt_bf16_f32) p q)

/-- The output tile's entry: the finished accumulator's entry times the scale. -/
theorem scale_apply (acc : Vec Ideal S1024x1024 .f32) (i : S1024x1024.Idx) :
    k0_pay3 (F := Ideal) acc i = acc i * Ideal.ofBits .f32 0x3C800000#32 := rfl

end Cert.KernelIdeal.BodyValue

end
-- ==== Proof.Tiles.lean ====
/-
  Where each window's block sits in its array.

  The grid has 16 × 4 × 4 = 256 points, walked in row-major order, so point `t` has row-tile `t / 16`,
  column-tile `(t / 4) % 4` and K-block `t % 4`. The left window's block at `t` is rows `1024·(t/16) …` and
  positions `1024·(t%4) …` of the flattened left operand; the right window's is rows `1024·((t/4)%4) …` and the same
  positions of the square operand; the output window's is rows `1024·(t/16) …`, columns `1024·((t/4)%4) …`.
-/
import proofs.«180732_j8890582303360_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem

namespace Cert.KernelIdeal.Tiles
open Cert.KernelIdeal Cert.KernelIdeal.Gen Idealize.ShloMosaic.ValueIdx
variable {F : FTy → Type} [FloatOps F]
variable (m : (ℓ : Loc nD τ sig) → Buf (Elt F) ℓ)

/-- The three index maps at point `t`, decided over the grid. -/
theorem lhs_tile : ∀ t : Fin cfg0.N, win0_0.index t 0 = t.val / 16 ∧ win0_0.index t 1 = t.val % 4 :=
  (by decide +kernel : ∀ t : Fin grid0.N, win0_0.index t 0 = t.val / 16 ∧ win0_0.index t 1 = t.val % 4)
theorem rhs_tile : ∀ t : Fin cfg0.N, win0_1.index t 0 = t.val / 4 % 4 ∧ win0_1.index t 1 = t.val % 4 :=
  (by decide +kernel : ∀ t : Fin grid0.N, win0_1.index t 0 = t.val / 4 % 4 ∧ win0_1.index t 1 = t.val % 4)
theorem out_tile : ∀ t : Fin cfg0.N, win0_2.index t 0 = t.val / 16 ∧ win0_2.index t 1 = t.val / 4 % 4 :=
  (by decide +kernel : ∀ t : Fin grid0.N, win0_2.index t 0 = t.val / 16 ∧ win0_2.index t 1 = t.val / 4 % 4)

theorem point_lt (t : Fin cfg0.N) : t.val < 256 := lt_of_lt_of_eq t.isLt (show cfg0.N = 256 from N_0)

/-- The two operands as the region finds them, and the two input blocks at a point, at their literal types. -/
abbrev lhsArr (c : Dev nD) : Vec F S16384x4096 .f32 := V m c main_v0
abbrev rhsArr (c : Dev nD) : Vec F S4096x4096 .f32 := V m c main_arg1
abbrev lhsBlk (c : Dev nD) (t : Fin cfg0.N) : Vec F S1024x1024 .f32 := iblk m c 0 t
abbrev rhsBlk (c : Dev nD) (t : Fin cfg0.N) : Vec F S1024x1024 .f32 := iblk m c 1 t

/-- Row `p`, position `k` of the left block at `t` is row `1024·(t/16) + p`, position `1024·(t%4) + k` of the operand. -/
theorem lhsBlk_apply (c : Dev nD) (t : Fin cfg0.N) (p k : Fin 1024) :
    lhsBlk m c t (ix2 p k)
      = lhsArr m c (ix2 ⟨1024 * (t.val / 16) + p.val, by have := point_lt t; have := p.isLt; omega⟩
          ⟨1024 * (t.val % 4) + k.val, by have := k.isLt; omega⟩) := by
  have hi := lhs_tile t
  unfold lhsBlk iblk
  rw [View.read_apply]
  show V m c main_v0 _ = V m c main_v0 _
  congr 1
  funext a
  apply Fin.ext
  match a with
  | ⟨0, _⟩ => show win0_0.index t 0 * 1024 + 1 * p.val = 1024 * (t.val / 16) + p.val; rw [hi.1]; omega
  | ⟨1, _⟩ => show win0_0.index t 1 * 1024 + 1 * k.val = 1024 * (t.val % 4) + k.val; rw [hi.2]; omega

/-- Row `q`, position `k` of the right block at `t` is row `1024·((t/4)%4) + q`, position `1024·(t%4) + k` of the
    square operand. -/
theorem rhsBlk_apply (c : Dev nD) (t : Fin cfg0.N) (q k : Fin 1024) :
    rhsBlk m c t (ix2 q k)
      = rhsArr m c (ix2 ⟨1024 * (t.val / 4 % 4) + q.val, by have := q.isLt; omega⟩
          ⟨1024 * (t.val % 4) + k.val, by have := k.isLt; omega⟩) := by
  have hi := rhs_tile t
  unfold rhsBlk iblk
  rw [View.read_apply]
  show V m c main_arg1 _ = V m c main_arg1 _
  congr 1
  funext a
  apply Fin.ext
  match a with
  | ⟨0, _⟩ => show win0_1.index t 0 * 1024 + 1 * q.val = 1024 * (t.val / 4 % 4) + q.val; rw [hi.1]; omega
  | ⟨1, _⟩ => show win0_1.index t 1 * 1024 + 1 * k.val = 1024 * (t.val % 4) + k.val; rw [hi.2]; omega

end Cert.KernelIdeal.Tiles

end
-- ==== Proof.Accumulate.lean ====
/-
  The accumulator, point by point, at the exact instance.

  After the body has run at grid point `n`, entry `(p, q)` of the accumulator is the contraction of row
  `1024·(n/16) + p` of the flattened left operand with row `1024·((n/4)%4) + q` of the square operand, taken over
  K-blocks `0 … n % 4`: at a tile's first point it is `0` plus block 0, and each later point of the tile adds its own
  block to what the point before left (the tile's row and column do not change while `n % 4` runs 0 … 3). At a
  tile's last point the output tile receives that finished contraction times the scale.
-/
import proofs.«180732_j8890582303360_1_alg».proof.Proof.RowDot
import proofs.«180732_j8890582303360_1_alg».proof.Proof.Cases
import proofs.«180732_j8890582303360_1_alg».proof.Proof.BodyValue
import proofs.«180732_j8890582303360_1_alg».proof.Proof.Tiles

noncomputable section

open Idealize.ShloMosaic Idealize.ShloMosaic.TcCoe Idealize.SL.Sem

namespace Cert.KernelIdeal.Accumulate
open Cert.KernelIdeal Cert.KernelIdeal.Gen Cert.KernelIdeal.Tiles Idealize.ShloMosaic.ValueIdx
variable (m : (ℓ : Loc nD τ sig) → Buf (Elt Ideal) ℓ)

/-- The product of the two input blocks at point `t`, at entry `(p, q)`, is K-block `t % 4` of the two rows'
    contraction. -/
theorem product_eq_block (c : Dev nD) (t : Fin cfg0.N) (p q : Fin 1024) (r : Fin 16384) (s : Fin 4096)
    (hr : r.val = 1024 * (t.val / 16) + p.val) (hs : s.val = 1024 * (t.val / 4 % 4) + q.val) :
    ∑ k : Fin 1024, lhsBlk m c t (ix2 p k) * rhsBlk m c t (ix2 q k)
      = RowDot.block (lhsArr m c) (rhsArr m c) r s (t.val % 4) := by
  obtain ⟨rv, rlt⟩ := r
  obtain ⟨sv, slt⟩ := s
  dsimp only at hr hs
  subst hr hs
  unfold RowDot.block
  refine Finset.sum_congr rfl fun k _ => ?_
  have hk := k.isLt
  rw [lhsBlk_apply, rhsBlk_apply, RowDot.term_of_lt _ _ _ _ (show 1024 * (t.val % 4) + k.val < 4096 by omega)]

/-- A tile's FIRST point: zero plus block 0. -/
theorem first_point (c : Dev nD) (t : Fin cfg0.N) (h0 : t.val % 4 = 0) (p q : Fin 1024) (r : Fin 16384) (s : Fin 4096)
    (hr : r.val = 1024 * (t.val / 16) + p.val) (hs : s.val = 1024 * (t.val / 4 % 4) + q.val) :
    (outsAt0 m c t.val t.isLt).2 (ix2 p q) = RowDot.upTo (lhsArr m c) (rhsArr m c) r s (t.val % 4) := by
  have h1 : ¬t.val % 4 = 3 := by omega
  rw [outsAt0_A m c t h0 h1]
  dsimp only
  refine (congrFun (Cases.acc_first (F := Ideal) c (grid0.coords t) (ms0_0 t) (hs0_0 t) (ms0_1 t) (hs0_1 t) (ms0_2 t) (hs0_2 t)
    scM0_0 (Memref.isWhole_whole _) ((hcond0_0 t).mpr h0) (fun h => h1 ((hcond0_1 t).mp h)) (iblk m c 0 t) (iblk m c 1 t)) (ix2 p q)).trans ?_
  refine (BodyValue.step_apply (lhsBlk m c t) (rhsBlk m c t) (k0_pay1 (F := Ideal)) p q).trans ?_
  rw [BodyValue.reset_apply, product_eq_block m c t p q r s hr hs, h0, RowDot.upTo_zero]

/-- A LATER point of the tile: what the point before left, plus this point's block. -/
theorem later_point (c : Dev nD) (t : Fin cfg0.N) (h0 : ¬t.val % 4 = 0) (p q : Fin 1024) (r : Fin 16384) (s : Fin 4096)
    (hr : r.val = 1024 * (t.val / 16) + p.val) (hs : s.val = 1024 * (t.val / 4 % 4) + q.val) (b : ℕ) (hb : t.val % 4 = b + 1)
    (ih : (outsAt0 m c (t.val - 1) (Nat.lt_of_le_of_lt (Nat.sub_le _ _) t.isLt)).2 (ix2 p q)
      = RowDot.upTo (lhsArr m c) (rhsArr m c) r s b) :
    (outsAt0 m c t.val t.isLt).2 (ix2 p q) = RowDot.upTo (lhsArr m c) (rhsArr m c) r s (t.val % 4) := by
  by_cases h1 : t.val % 4 = 3
  · rw [outsAt0_C m c t h0 h1]
    dsimp only
    refine (congrFun (Cases.acc_last (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2) (ix2 p q)).trans ?_
    refine (BodyValue.step_apply (lhsBlk m c t) (rhsBlk m c t) _ p q).trans ?_
    rw [ih, product_eq_block m c t p q r s hr hs, hb, RowDot.upTo_succ]
  · rw [outsAt0_B m c t h0 h1]
    dsimp only
    refine (congrFun (Cases.acc_middle (F := Ideal) c (grid0.coords t) (ms0_0 t) (hs0_0 t) (ms0_1 t) (hs0_1 t) (ms0_2 t) (hs0_2 t)
      scM0_0 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2) (ix2 p q)).trans ?_
    refine (BodyValue.step_apply (lhsBlk m c t) (rhsBlk m c t) _ p q).trans ?_
    rw [ih, product_eq_block m c t p q r s hr hs, hb, RowDot.upTo_succ]

/-- THE ACCUMULATOR after point `n`: the two rows' contraction over K-blocks `0 … n % 4`. -/
theorem acc_eq (c : Dev nD) (n : ℕ) : ∀ (h : n < cfg0.N) (p q : Fin 1024) (r : Fin 16384) (s : Fin 4096),
    r.val = 1024 * (n / 16) + p.val → s.val = 1024 * (n / 4 % 4) + q.val →
    (outsAt0 m c n h).2 (ix2 p q) = RowDot.upTo (lhsArr m c) (rhsArr m c) r s (n % 4) := by
  induction n with
  | zero => intro h p q r s hr hs; exact first_point m c ⟨0, h⟩ rfl p q r s hr hs
  | succ k ih =>
    intro h p q r s hr hs
    by_cases h0 : (k + 1) % 4 = 0
    · exact first_point m c ⟨k + 1, h⟩ h0 p q r s hr hs
    · exact later_point m c ⟨k + 1, h⟩ h0 p q r s hr hs (k % 4) (by show (k + 1) % 4 = k % 4 + 1; omega)
        (ih (Nat.lt_of_succ_lt h) p q r s (by omega) (by omega))

/-- THE OUTPUT TILE at a tile's last point: the whole contraction of the two rows, scaled. -/
theorem tile_eq (c : Dev nD) (t : Fin cfg0.N) (h1 : t.val % 4 = 3) (p q : Fin 1024) (r : Fin 16384) (s : Fin 4096)
    (hr : r.val = 1024 * (t.val / 16) + p.val) (hs : s.val = 1024 * (t.val / 4 % 4) + q.val) :
    (outsAt0 m c t.val t.isLt).1 (ix2 p q) = RowDot.whole (lhsArr m c) (rhsArr m c) r s * RowDot.scale := by
  have h0 : ¬t.val % 4 = 0 := by omega
  have hacc := acc_eq m c t.val t.isLt p q r s hr hs
  rw [outsAt0_C m c t h0 h1] at hacc ⊢
  dsimp only at hacc ⊢
  refine (congrFun (Cases.out_last (F := Ideal) c (grid0.coords t) (ms0_0 t) (hs0_0 t) (ms0_1 t) (hs0_1 t) (ms0_2 t) (hs0_2 t)
    scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2) (ix2 p q)).trans ?_
  rw [BodyValue.scale_apply]
  rw [(congrFun (Cases.acc_last (F := Ideal) c (grid0.coords t) (ms0_0 t) (hs0_0 t) (ms0_1 t) (hs0_1 t) (ms0_2 t) (hs0_2 t)
    scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2) (ix2 p q))] at hacc
  rw [hacc, h1, RowDot.upTo_three]

end Cert.KernelIdeal.Accumulate

end
-- ==== Proof.Reshape.lean ====
/-
  The result with its three axes, and the flat result seen through the two reshapes.

  Entry `(b, s, n)` of the three-axis result is the contraction of the input's row `(b, s)` with row `n` of the
  square operand, scaled. Flattening the first two axes sends `(b, s)` to row `4096·b + s` and keeps positions, and
  un-flattening the result sends row `4096·b + s`, column `n` back to `(b, s, n)`: a reshape keeps the row-major
  position, nothing else. So the flat scaled contraction of the flattened input, un-flattened, is the three-axis result.
-/
import proofs.«180732_j8890582303360_1_alg».proof.Proof.RowDot
import Idealize.ShloMosaic.Lib.Pipeline.Value

noncomputable section

namespace Cert.RowDot

open Idealize.ShloMosaic Idealize.ShloMosaic.ValueIdx

abbrev In3 : Type := (⟨3, ![4, 4096, 4096]⟩ : Shape).Idx → EReal

/-- THE RESULT: entry `(b, s, n)` is the contraction of row `(b, s)` of the input with row `n` of `H`, scaled. -/
def result (x : In3) (H : Rhs) : In3 :=
  fun i => (∑ k : Fin 4096, x (ix3 (i 0) (i 1) k) * H (ix2 (i 2) k)) * scale

/-- The flat scaled contraction of the flattened input, given its three axes back, is the result. -/
theorem unflatten_scaled (x : In3) (H : Rhs)
    (c1 : (⟨3, ![4, 4096, 4096]⟩ : Shape).ShapeCasts ⟨2, ![16384, 4096]⟩)
    (c2 : (⟨2, ![16384, 4096]⟩ : Shape).ShapeCasts ⟨3, ![4, 4096, 4096]⟩) :
    shapeCast ⟨3, ![4, 4096, 4096]⟩ (scaled (shapeCast ⟨2, ![16384, 4096]⟩ x c1) H) c2 = result x H := by
  funext i
  have h0 : (i 0).val < 4 := (i 0).isLt
  have h1 : (i 1).val < 4096 := (i 1).isLt
  have h2 : (i 2).val < 4096 := (i 2).isLt
  rw [shapeCast_apply _ c2 i (ix2 ⟨(i 0).val * 4096 + (i 1).val, by omega⟩ (i 2))
    (by rewrite [Shape.rowMajor_val_two, Shape.rowMajor_val_three]
        show ((i 0).val * 4096 + (i 1).val) * 4096 + (i 2).val = ((i 0).val * 4096 + (i 1).val) * 4096 + (i 2).val
        rfl)]
  unfold scaled whole result
  refine congrArg (· * scale) (Finset.sum_congr rfl fun k _ => ?_)
  have hk : k.val < 4096 := k.isLt
  refine congrArg (· * H (ix2 (i 2) k)) ?_
  exact shapeCast_apply x c1 _ (ix3 (i 0) (i 1) k)
    (by rewrite [Shape.rowMajor_val_three, Shape.rowMajor_val_two]
        show ((i 0).val * 4096 + (i 1).val) * 4096 + k.val = ((i 0).val * 4096 + (i 1).val) * 4096 + k.val
        rfl)

end Cert.RowDot

end
-- ==== Proof.Product.lean ====
/-
  From tiles to the whole result, and through the two reshapes around the region.

  Only a tile's last point (K-block 3) writes its output tile back, and what it writes is the tile of ONE function of
  the two operands: entry `(r, n)` is the whole contraction of row `r` with row `n`, scaled. The 16 × 4 output tiles
  fill the 16384 × 4096 result, so that function is what the result array ends holding. Before the region the
  three-axis input is flattened to 16384 rows; after it the flat result is given its three axes back.
-/
import proofs.«180732_j8890582303360_1_alg».proof.Proof.Accumulate
import proofs.«180732_j8890582303360_1_alg».proof.Proof.Reshape
import Idealize.ShloMosaic.Lib.StableHlo.Run

noncomputable section

open Idealize.ShloMosaic Idealize.ShloMosaic.TcCoe Idealize.SL.Sem

namespace Cert.KernelIdeal.Product
open Cert.KernelIdeal Cert.KernelIdeal.Gen Cert.KernelIdeal.Tiles Idealize.ShloMosaic.ValueIdx
open Idealize.ShloMosaic.Pipeline (Dat)
variable (m : (ℓ : Loc nD τ sig) → Buf (Elt Ideal) ℓ) (ρ : Dev nD → PrngReg)

/-- What the flat result array ends holding: every entry the scaled contraction of its two rows. -/
abbrev flat (c : Dev nD) : Buf (Elt Ideal) ((c : Thread nD τ).loc main_v1) :=
  RowDot.scaled (lhsArr m c) (rhsArr m c)

/-- Entry `j` of the tile written at a last point `t` is the entry of `flat` at the tile's offset plus `j`. -/
theorem tile_entry (c : Dev nD) (t : Fin cfg0.N) (h3 : t.val % 4 = 3) (j : S1024x1024.Idx) (i : S16384x4096.Idx)
    (hr : (i 0).val = 1024 * (t.val / 16) + (j 0).val) (hs : (i 1).val = 1024 * (t.val / 4 % 4) + (j 1).val) :
    (outsAt0 m c t.val t.isLt).1 j = flat m c i := by
  obtain ⟨p, q, rfl⟩ : ∃ (p q : Fin 1024), j = ix2 p q := ⟨j 0, j 1, eq_ix2 j⟩
  rw [Accumulate.tile_eq m c t h3 p q (i 0) (i 1) hr hs]
  rfl

/-- WHAT A LAST POINT WRITES BACK is its tile of `flat`. -/
theorem flushed_eq (c : Dev nD) (t : Fin cfg0.N) (hf : (cfg0.win 2).flush t = true) :
    (dats m 0 c).flushed 2 t = ((cfg0.win 2).blk t).view.read (Elt Ideal) (flat m c) := by
  have h3 : t.val % 4 = 3 := (flush0_2 t).mp hf
  have hi := out_tile t
  show (cfg0.win 2).cut (grid0.coords t) ((dats m 0 c).after 2 t) = _
  rw [after0_2]
  funext j
  exact tile_entry m c t h3 j (((cfg0.win 2).blk t).view.emb j)
    (by show win0_2.index t 0 * 1024 + 1 * (j 0).val = _; rw [hi.1]; omega)
    (by show win0_2.index t 1 * 1024 + 1 * (j 1).val = _; rw [hi.2]; omega)

/-- An entry of the result lies in point `t`'s tile iff each coordinate lies in the tile's range on its axis. -/
theorem mem_tile (t : Fin cfg0.N) (i : S16384x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v1).slice (win0_2.rect t)).set ↔ _
  rw [View.set_slice_whole, Rect.mem_set_unit]
  exact Iff.rfl

/-- Every entry of the result is in the tile of some last point: row-tile `i₀ / 1024`, column-tile `i₁ / 1024`, K-block 3. -/
theorem covered (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, htv⟩ : ∃ t : Fin cfg0.N, t.val = 16 * ((i 0).val / 1024) + 4 * ((i 1).val / 1024) + 3 :=
    ⟨⟨16 * ((i 0).val / 1024) + 4 * ((i 1).val / 1024) + 3, by rw [show cfg0.N = 256 from N_0]; omega⟩, rfl⟩
  have ht := out_tile t
  refine ⟨t, (flush0_2 t).mpr (by omega), ?_⟩
  rw [mem_tile]
  intro a
  match a with
  | ⟨0, _⟩ => show win0_2.index t 0 * 1024 ≤ (i 0).val ∧ (i 0).val < win0_2.index t 0 * 1024 + 1024; rw [ht.1]; omega
  | ⟨1, _⟩ => show win0_2.index t 1 * 1024 ≤ (i 1).val ∧ (i 1).val < win0_2.index t 1 * 1024 + 1024; rw [ht.2]; omega

/-- THE FLAT RESULT ARRAY after the region. -/
theorem final (c : Dev nD) : (dats m 0 c).arrAt 2 cfg0.N = flat m c :=
  (dats m 0 c).arrAt_eq_of_cover 2 (flat m c) (flushed_eq m c) covered

/-- The left operand as the region finds it: the three-axis input, flattened. -/
theorem lhsArr_eq (c : Dev nD) :
    lhsArr m c = shapeCast S16384x4096 (m ((c : Thread nD τ).loc main_arg0)) shapeCasts_S4x4096x4096_S16384x4096 := by
  show StableHlo.after hostOps0 (fun b => m (c, b)) (Proc.devRef .tc main_v0) = _
  after_results
  rfl

/-- The right operand as the region finds it: the square input itself. -/
theorem rhsArr_eq (c : Dev nD) : rhsArr m c = m ((c : Thread nD τ).loc main_arg1) := V_main_arg1 m c

/-- The program's result: the flat result array with its three axes back. -/
theorem tail_eq (c : Dev nD) :
    Pipeline.afterTail₀ cfgs (dats m) 0 (V0 m) [hostOps1] c main_v2
      = shapeCast S4x4096x4096 (flat m c) shapeCasts_S16384x4096_S4x4096x4096 := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v1) = flat m c from
    (Pipeline.withArrays_arr spec0 launch0.win.arr_inj c _ _ 2).trans (final m c)]
  rfl

/-- The flat result in terms of the program's two inputs; -/
theorem flat_eq (c : Dev nD) :
    flat m c = RowDot.scaled (shapeCast S16384x4096 (m ((c : Thread nD τ).loc main_arg0)) shapeCasts_S4x4096x4096_S16384x4096)
      (m ((c : Thread nD τ).loc main_arg1)) :=
  congrArg₂ RowDot.scaled (lhsArr_eq m c) (rhsArr_eq m c)

/-- so the program's result is the three-axis result of its two inputs. -/
theorem result_eq (c : Dev nD) :
    shapeCast S4x4096x4096 (flat m c) shapeCasts_S16384x4096_S4x4096x4096
      = RowDot.result (m ((c : Thread nD τ).loc main_arg0)) (m ((c : Thread nD τ).loc main_arg1)) := by
  rw [flat_eq]
  exact RowDot.unflatten_scaled _ _ _ _

/-- THE KERNEL'S RUN, READ: every execution ends with the program's result at the reshaped `flat` and both
    arguments as they were. -/
theorem run : θ_run defs (onTc (τ := τ) (main (F := Ideal))) ⟨m, fun _ => 0, ρ⟩ fun r => ∀ c : Dev nD,
      r.2.mem ((c : Thread nD τ).loc main_v2) = shapeCast S4x4096x4096 (flat m c) shapeCasts_S16384x4096_S4x4096x4096
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.KernelIdeal.Product

end
-- ==== Proof.RefStages.lean ====
/-
  The reference, stage by stage, is the three-axis result.

  It gives the input a unit axis (rows `(b, s, 0)`), contracts the last axis with the square operand's second axis,
  multiplies by the scale, and drops the unit axis again. Read back through the two reshapes, entry `(b, s, n)` is the
  contraction of the input's row `(b, s)` with row `n` of the square operand, times the scale.
-/
import proofs.«180732_j8890582303360_1_alg».proof.Proof.Gen.ReferenceIdeal.Run
import proofs.«180732_j8890582303360_1_alg».proof.Proof.Gen.ReferenceIdeal.Read
import proofs.«180732_j8890582303360_1_alg».proof.Proof.Reshape

noncomputable section

open Idealize.ShloMosaic Idealize.ShloMosaic.TcCoe Idealize.SL.Sem

namespace Cert.ReferenceIdeal.Stages
open Cert.ReferenceIdeal Cert.ReferenceIdeal.Read Idealize.ShloMosaic.ValueIdx

/-- Through the unit axis and back, the input is read at `(b, s, k)`; -/
theorem input_index (i : S4x4096x4096.Idx) (k : Fin 4096) :
    idx_main_v0 (lidx_main_v1 (idx_main_v4 i) k) = ix3 (i 0) (i 1) k := by
  have h0 : (i 0).val < 4 := (i 0).isLt
  have h1 : (i 1).val < 4096 := (i 1).isLt
  have h2 : (i 2).val < 4096 := (i 2).isLt
  have hk : k.val < 4096 := k.isLt
  funext a
  apply Fin.ext
  match a with
  | ⟨0, _⟩ =>
    show ((((((i 0).val * 4096 + (i 1).val) * 4096 + (i 2).val) / 16777216 * 4096 + (((i 0).val * 4096 + (i 1).val) * 4096 + (i 2).val) / 4096 % 4096) * 1 + 0) * 4096 + k.val) / 16777216 = (i 0).val
    omega
  | ⟨1, _⟩ =>
    show ((((((i 0).val * 4096 + (i 1).val) * 4096 + (i 2).val) / 16777216 * 4096 + (((i 0).val * 4096 + (i 1).val) * 4096 + (i 2).val) / 4096 % 4096) * 1 + 0) * 4096 + k.val) / 4096 % 4096 = (i 1).val
    omega
  | ⟨2, _⟩ =>
    show ((((((i 0).val * 4096 + (i 1).val) * 4096 + (i 2).val) / 16777216 * 4096 + (((i 0).val * 4096 + (i 1).val) * 4096 + (i 2).val) / 4096 % 4096) * 1 + 0) * 4096 + k.val) % 4096 = k.val
    omega

/-- and the square operand at `(n, k)`. -/
theorem square_index (i : S4x4096x4096.Idx) (k : Fin 4096) :
    ridx_main_v1 (idx_main_v4 i) k = ix2 (i 2) k := by
  have h0 : (i 0).val < 4 := (i 0).isLt
  have h1 : (i 1).val < 4096 := (i 1).isLt
  have h2 : (i 2).val < 4096 := (i 2).isLt
  funext a
  apply Fin.ext
  match a with
  | ⟨0, _⟩ =>
    show (((i 0).val * 4096 + (i 1).val) * 4096 + (i 2).val) % 4096 = (i 2).val
    omega
  | ⟨1, _⟩ => rfl

/-- THE REFERENCE'S LAST STAGE is the result. -/
theorem last_stage (x : (⟨S4x4096x4096, .f32⟩ : BufTy).Contents (Elt Ideal)) (H : (⟨S4096x4096, .f32⟩ : BufTy).Contents (Elt Ideal)) :
    val_main_v4 (F := Ideal) x H = RowDot.result x H := by
  funext i
  rw [val_main_v4_apply, val_main_v3_apply, val_main_v1_apply, val_main_v2_apply, val_main_cst_apply]
  unfold RowDot.result
  refine congrArg (· * RowDot.scale) (Finset.sum_congr rfl fun k _ => ?_)
  rw [val_main_v0_apply, input_index, square_index]
  rfl

end Cert.ReferenceIdeal.Stages

end
-- ==== Proof.lean ====
/-
  The kernel multiplies the input, flattened to 16384 rows of length 4096, by the transpose of a square 4096 × 4096
  operand and scales by 2⁻⁶. It does so tile by tile (1024 × 1024) and, within a tile, in four K-blocks of 1024 that
  are added one after the other into an accumulator starting from zero; the last K-block writes the accumulator,
  scaled, into the output tile. The reference forms each entry as ONE contraction over all 4096 positions and scales
  by the same word.

  Over the extended reals the two are equal entry by entry: narrowing the operands to a shorter float format is
  the identity, the block product into a zero accumulator is a plain sum, and `((0 + s₀) + s₁) + s₂) + s₃` of the four
  block sums is the whole sum because addition is associative and commutative with `0` neutral (infinite entries
  included, so the inputs' finiteness is never used). Both sides then multiply that one sum by the same scale.

  The modules: `RowDot` (the contraction, its blocks, the law), `Reshape` (the three-axis result and the two
  reshapes), `Cases` and `BodyValue` (what one run of the body leaves; its arithmetic entry by entry), `Tiles` (where
  the blocks sit), `Accumulate` (the accumulator after every grid point, by induction on the point), `Product` (from
  tiles to the result array and through the reshapes around the region), `RefStages` (the reference, stage by stage).
-/
import proofs.«180732_j8890582303360_1_alg».proof.Defs
import proofs.«180732_j8890582303360_1_alg».proof.Proof.Gen.Kernel
import proofs.«180732_j8890582303360_1_alg».proof.Proof.Gen.Kernel.Skeleton
import proofs.«180732_j8890582303360_1_alg».proof.Proof.Gen.Kernel.Launch
import proofs.«180732_j8890582303360_1_alg».proof.Proof.Gen.Kernel.Points
import proofs.«180732_j8890582303360_1_alg».proof.Proof.Gen.Kernel.Frame
import proofs.«180732_j8890582303360_1_alg».proof.Proof.Gen.KernelIdeal
import proofs.«180732_j8890582303360_1_alg».proof.Proof.Gen.KernelIdeal.Skeleton
import proofs.«180732_j8890582303360_1_alg».proof.Proof.Gen.KernelIdeal.Launch
import proofs.«180732_j8890582303360_1_alg».proof.Proof.Gen.KernelIdeal.Points
import proofs.«180732_j8890582303360_1_alg».proof.Proof.Gen.KernelIdeal.Frame
import proofs.«180732_j8890582303360_1_alg».proof.Proof.Gen.ReferenceIdeal
import proofs.«180732_j8890582303360_1_alg».proof.Proof.Gen.Pre_finite_inputs
import proofs.«180732_j8890582303360_1_alg».proof.Proof.Product
import proofs.«180732_j8890582303360_1_alg».proof.Proof.RefStages
import Idealize.ShloMosaic.Adequacy
import Idealize.ShloMosaic.Init

noncomputable section

namespace Cert.Proof

open Idealize.ShloMosaic Idealize.ShloMosaic.TcCoe Idealize.SL.Sem

/-- The word-level kernel and its idealization terminate without a fault and leave both inputs as they were. -/
theorem frame_kernel : Cert.frame_Kernel := fun m ρ _ => Cert.Kernel.Gen.frame m ρ
theorem frame_kernelIdeal : Cert.frame_KernelIdeal := fun m ρ _ => Cert.KernelIdeal.Gen.frame m ρ
/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From inputs that agree, both programs end with the three-axis result of those inputs: the kernel by its K-blocked
    accumulation read tile by tile, the reference by its one contraction read stage by stage. -/
theorem algebraic : Cert.algebraic_KernelIdeal_ReferenceIdeal := by
  intro m ρ m' ρ' _ hagree
  refine ⟨fun c => Cert.RowDot.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Product.result_eq m c), (h c).2⟩)
      (Cert.KernelIdeal.Product.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v4_eq, Cert.ReferenceIdeal.Stages.last_stage, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
